-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x1024 : Shape := ⟨3, ![32, 128, 1024]⟩
abbrev S32x128x512 : Shape := ⟨3, ![32, 128, 512]⟩
abbrev S32768x1x384 : Shape := ⟨3, ![32768, 1, 384]⟩
abbrev S_ : Shape := ⟨0, ![]⟩

class Facts : Prop where
  bcast_S_S32x128x1024 : S_.BroadcastsInDim S32x128x1024 (![] : Fin 0 → Fin S32x128x1024.rank)
  reducesTo_S32x128x1024_S_d0_1_2 : S32x128x1024.ReducesTo [0, 1, 2] S_
  h_S_ : 0 < S_.numel
  bcast_S_S32x128x512 : S_.BroadcastsInDim S32x128x512 (![] : Fin 0 → Fin S32x128x512.rank)
  reducesTo_S32x128x512_S_d0_1_2 : S32x128x512.ReducesTo [0, 1, 2] S_
  bcast_S_S32768x1x384 : S_.BroadcastsInDim S32768x1x384 (![] : Fin 0 → Fin S32768x1x384.rank)
  reducesTo_S32768x1x384_S_d0_1_2 : S32768x1x384.ReducesTo [0, 1, 2] S_

variable [Facts]

def fn {F : FTy → Type} [FloatOps F] (main_arg0 : FVec F S32x128x1024 .f32) (main_arg1 : FVec F S32x128x512 .f32) (main_arg2 : FVec F S32768x1x384 .f32) : IVec S_ 1 :=
  let main_v0 : FVec F S32x128x1024 .f32 := Host.absf main_arg0
  let main_cst : FVec F S_ .f32 := constant S_ .f32 0x7F800000#32
  let main_v1 : FVec F S32x128x1024 .f32 := broadcastInDim S32x128x1024 ![] bcast_S_S32x128x1024 main_cst
  let main_v2 : IVec S32x128x1024 1 := cmpf .olt main_v0 main_v1
  let main_c : IVec S_ 1 := constantI S_ 1 1#1
  let main_v3 : IVec S_ 1 := (fun x v => Host.reduce IntOp.andi x v reducesTo_S32x128x1024_S_d0_1_2 h_S_) main_v2 main_c
  let main_v4 : FVec F S32x128x512 .f32 := Host.absf main_arg1
  let main_cst_0 : FVec F S_ .f32 := constant S_ .f32 0x7F800000#32
  let main_v5 : FVec F S32x128x512 .f32 := broadcastInDim S32x128x512 ![] bcast_S_S32x128x512 main_cst_0
  let main_v6 : IVec S32x128x512 1 := cmpf .olt main_v4 main_v5
  let main_c_1 : IVec S_ 1 := constantI S_ 1 1#1
  let main_v7 : IVec S_ 1 := (fun x v => Host.reduce IntOp.andi x v reducesTo_S32x128x512_S_d0_1_2 h_S_) main_v6 main_c_1
  let main_v8 : IVec S_ 1 := andi main_v3 main_v7
  let main_v9 : FVec F S32768x1x384 .f32 := Host.absf main_arg2
  let main_cst_2 : FVec F S_ .f32 := constant S_ .f32 0x7F800000#32
  let main_v10 : FVec F S32768x1x384 .f32 := broadcastInDim S32768x1x384 ![] bcast_S_S32768x1x384 main_cst_2
  let main_v11 : IVec S32768x1x384 1 := cmpf .olt main_v9 main_v10
  let main_c_3 : IVec S_ 1 := constantI S_ 1 1#1
  let main_v12 : IVec S_ 1 := (fun x v => Host.reduce IntOp.andi x v reducesTo_S32768x1x384_S_d0_1_2 h_S_) main_v11 main_c_3
  let main_v13 : IVec S_ 1 := andi main_v8 main_v12
  main_v13
-- ==== Kernel.lean ====
abbrev S32x128x1024 : Shape := ⟨3, ![32, 128, 1024]⟩
abbrev S32x128x512 : Shape := ⟨3, ![32, 128, 512]⟩
abbrev S32768x1x384 : Shape := ⟨3, ![32768, 1, 384]⟩
abbrev S32x1024x384 : Shape := ⟨3, ![32, 1024, 384]⟩
abbrev S32x512x1024 : Shape := ⟨3, ![32, 512, 1024]⟩
abbrev S1x128x1024 : Shape := ⟨3, ![1, 128, 1024]⟩
abbrev S1x128x512 : Shape := ⟨3, ![1, 128, 512]⟩
abbrev S1x1024x384 : Shape := ⟨3, ![1, 1024, 384]⟩
abbrev S1x512x1024 : Shape := ⟨3, ![1, 512, 1024]⟩
abbrev S128x1024 : Shape := ⟨2, ![128, 1024]⟩
abbrev S128x512 : Shape := ⟨2, ![128, 512]⟩
abbrev S1024x384 : Shape := ⟨2, ![1024, 384]⟩
abbrev S1024x128 : Shape := ⟨2, ![1024, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S32x128x1024, .f32⟩
  | .hbm, ⟨1, _⟩ => ⟨S32x128x512, .f32⟩
  | .hbm, ⟨2, _⟩ => ⟨S32768x1x384, .f32⟩
  | .hbm, ⟨3, _⟩ => ⟨S32x1024x384, .f32⟩
  | .hbm, ⟨4, _⟩ => ⟨S32x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x512, .f32⟩
  | .local _ .vmem, ⟨3, _⟩ => ⟨S1x128x512, .f32⟩
  | .local _ .vmem, ⟨4, _⟩ => ⟨S1x1024x384, .f32⟩
  | .local _ .vmem, ⟨5, _⟩ => ⟨S1x1024x384, .f32⟩
  | .local _ .vmem, ⟨6, _⟩ => ⟨S1x512x1024, .f32⟩
  | .local _ .vmem, ⟨7, _⟩ => ⟨S1x512x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768x1x384_S32x1024x384 : S32768x1x384.ShapeCasts S32x1024x384
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  transposes_S128x1024_p1_0_S1024x128 : S128x1024.Transposes [1, 0] S1024x128
  transposes_S128x512_p1_0_S512x128 : S128x512.Transposes [1, 0] S512x128
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  bitsLt_bf16_f32 : FTy.bits .bf16 < FTy.bits .f32
  reduces_S1024x128_S1024 : S1024x128.Reduces [1] S1024
  shapeCasts_S1024_S1024x1 : S1024.ShapeCasts S1024x1
  broadcasts_S1024x1_S1024x512 : S1024x1.Broadcasts S1024x512
  reduces_S1024x512_S1024 : S1024x512.Reduces [1] S1024
  reduces_S1024x512_S512 : S1024x512.Reduces [0] S512
  shapeCasts_S512_S1x512 : S512.ShapeCasts S1x512
  broadcasts_S1x512_S1024x512 : S1x512.Broadcasts S1024x512
  transposes_S1024x512_p1_0_S512x1024 : S1024x512.Transposes [1, 0] S512x1024
  concatenates_S1024x128_S1024x128_S1024x128_S1024x128_S1024x512_d1 : Shape.Concatenates [S1024x128, S1024x128, S1024x128, S1024x128] S1024x512 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S32x128x1024.size a
  hwx0_0 : ∀ i : grid0.Coords, EltTy.bits .f32 = 32 ∨ (Rect.block (s := S32x128x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S32x128x512.size a
  hwx0_1 : ∀ i : grid0.Coords, EltTy.bits .f32 = 32 ∨ (Rect.block (s := S32x128x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x384.size a ≤ S32x1024x384.size a
  hwx0_2 : ∀ i : grid0.Coords, EltTy.bits .f32 = 32 ∨ (Rect.block (s := S32x1024x384) S1x1024x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x1024 : Shape := ⟨3, ![32, 128, 1024]⟩
abbrev S32x128x512 : Shape := ⟨3, ![32, 128, 512]⟩
abbrev S32768x1x384 : Shape := ⟨3, ![32768, 1, 384]⟩
abbrev S32x1024x128 : Shape := ⟨3, ![32, 1024, 128]⟩
abbrev S32x512x128 : Shape := ⟨3, ![32, 512, 128]⟩
abbrev S32x1024x384 : Shape := ⟨3, ![32, 1024, 384]⟩
abbrev S32x1024x512 : Shape := ⟨3, ![32, 1024, 512]⟩
abbrev S_ : Shape := ⟨0, ![]⟩
abbrev S32x1024 : Shape := ⟨2, ![32, 1024]⟩
abbrev S32x1024x1 : Shape := ⟨3, ![32, 1024, 1]⟩
abbrev S32x512 : Shape := ⟨2, ![32, 512]⟩
abbrev S32x1x512 : Shape := ⟨3, ![32, 1, 512]⟩
abbrev S32x512x1024 : Shape := ⟨3, ![32, 512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32x128x1024, .f32⟩
  | .hbm, ⟨1, _⟩ => ⟨S32x128x512, .f32⟩
  | .hbm, ⟨2, _⟩ => ⟨S32768x1x384, .f32⟩
  | .hbm, ⟨3, _⟩ => ⟨S32x1024x128, .f32⟩
  | .hbm, ⟨4, _⟩ => ⟨S32x512x128, .f32⟩
  | .hbm, ⟨5, _⟩ => ⟨S32x1024x384, .f32⟩
  | .hbm, ⟨6, _⟩ => ⟨S32x1024x128, .f32⟩
  | .hbm, ⟨7, _⟩ => ⟨S32x1024x128, .f32⟩
  | .hbm, ⟨8, _⟩ => ⟨S32x1024x128, .f32⟩
  | .hbm, ⟨9, _⟩ => ⟨S32x1024x512, .f32⟩
  | .hbm, ⟨10, _⟩ => ⟨S32x1024x128, .f32⟩
  | .hbm, ⟨11, _⟩ => ⟨S_, .f32⟩
  | .hbm, ⟨12, _⟩ => ⟨S32x1024, .f32⟩
  | .hbm, ⟨13, _⟩ => ⟨S32x1024x1, .f32⟩
  | .hbm, ⟨14, _⟩ => ⟨S32x1024x512, .f32⟩
  | .hbm, ⟨15, _⟩ => ⟨S32x1024x512, .f32⟩
  | .hbm, ⟨16, _⟩ => ⟨S32x1024x128, .f32⟩
  | .hbm, ⟨17, _⟩ => ⟨S32x1024x512, .f32⟩
  | .hbm, ⟨18, _⟩ => ⟨S32x1024x512, .f32⟩
  | .hbm, ⟨19, _⟩ => ⟨S_, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024x1, .f32⟩
  | .hbm, ⟨25, _⟩ => ⟨S32x1024x512, .f32⟩
  | .hbm, ⟨26, _⟩ => ⟨S32x1024x512, .f32⟩
  | .hbm, ⟨27, _⟩ => ⟨S32x1024x512, .f32⟩
  | .hbm, ⟨28, _⟩ => ⟨S_, .f32⟩
  | .hbm, ⟨29, _⟩ => ⟨S32x1024, .f32⟩
  | .hbm, ⟨30, _⟩ => ⟨S32x1024x1, .f32⟩
  | .hbm, ⟨31, _⟩ => ⟨S32x1024x512, .f32⟩
  | .hbm, ⟨32, _⟩ => ⟨S32x1024x512, .f32⟩
  | .hbm, ⟨33, _⟩ => ⟨S_, .f32⟩
  | .hbm, ⟨34, _⟩ => ⟨S32x512, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S32x1x512, .f32⟩
  | .hbm, ⟨39, _⟩ => ⟨S32x1024x512, .f32⟩
  | .hbm, ⟨40, _⟩ => ⟨S32x1024x512, .f32⟩
  | .hbm, ⟨41, _⟩ => ⟨S32x1024x512, .f32⟩
  | .hbm, ⟨42, _⟩ => ⟨S_, .f32⟩
  | .hbm, ⟨43, _⟩ => ⟨S32x512, .f32⟩
  | .hbm, ⟨44, _⟩ => ⟨S32x1x512, .f32⟩
  | .hbm, ⟨45, _⟩ => ⟨S32x1024x512, .f32⟩
  | .hbm, ⟨46, _⟩ => ⟨S32x1024x512, .f32⟩
  | .hbm, ⟨47, _⟩ => ⟨S32x1024x128, .f32⟩
  | .hbm, ⟨48, _⟩ => ⟨S32x512x128, .f32⟩
  | .hbm, ⟨49, _⟩ => ⟨S32x1024x128, .f32⟩
  | .hbm, ⟨50, _⟩ => ⟨S32x1024x128, .f32⟩
  | .hbm, ⟨51, _⟩ => ⟨S32x1024x128, .f32⟩
  | .hbm, ⟨52, _⟩ => ⟨S32x1024x512, .f32⟩
  | .hbm, ⟨53, _⟩ => ⟨S32x512x1024, .f32⟩
  | _, _ => ⟨S32x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

class Facts₀ : Prop where
  transposes_S32x128x1024_S32x1024x128_0_2_1 : S32x128x1024.Transposes [0, 2, 1] S32x1024x128
  transposes_S32x128x512_S32x512x128_0_2_1 : S32x128x512.Transposes [0, 2, 1] S32x512x128
  shapeCasts_S32768x1x384_S32x1024x384 : S32768x1x384.ShapeCasts S32x1024x384
  slices_S32x1024x384_S32x1024x128_0_0_0 : S32x1024x384.Slices ![0, 0, 0] S32x1024x128
  slices_S32x1024x384_S32x1024x128_0_0_128 : S32x1024x384.Slices ![0, 0, 128] S32x1024x128
  slices_S32x1024x384_S32x1024x128_0_0_256 : S32x1024x384.Slices ![0, 0, 256] S32x1024x128
  reducesTo_S32x1024x128_S32x1024_d2 : S32x1024x128.ReducesTo [2] S32x1024
  h_S_ : 0 < S_.numel
  bcast_S32x1024_S32x1024x1_0_1 : S32x1024.BroadcastsInDim S32x1024x1 (![0, 1] : Fin 2 → Fin S32x1024x1.rank)
  bcast_S32x1024x1_S32x1024x512_0_1_2 : S32x1024x1.BroadcastsInDim S32x1024x512 (![0, 1, 2] : Fin 3 → Fin S32x1024x512.rank)
  reducesTo_S32x1024x512_S32x1024_d2 : S32x1024x512.ReducesTo [2] S32x1024
  bcast_S_S32x1024 : S_.BroadcastsInDim S32x1024 (![] : Fin 0 → Fin S32x1024.rank)
  reducesTo_S32x1024x512_S32x512_d1 : S32x1024x512.ReducesTo [1] S32x512
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x1x512_S32x1024x512_0_1_2 : S32x1x512.BroadcastsInDim S32x1024x512 (![0, 1, 2] : Fin 3 → Fin S32x1024x512.rank)
  concatenates_S32x1024x128_S32x1024x128_S32x1024x128_S32x1024x128_S32x1024x512_d2 : Shape.Concatenates [S32x1024x128, S32x1024x128, S32x1024x128, S32x1024x128] S32x1024x512 2
  transposes_S32x1024x512_S32x512x1024_0_2_1 : S32x1024x512.Transposes [0, 2, 1] S32x512x1024
  dot_S32x1024x128_S32x512x128_S32x1024x512_2_2_1_1_0_0_wf : DotDims.WF S32x1024x128 S32x512x128 S32x1024x512 [2] [2] [1] [1] [0] [0]
  dot_S32x1024x512_S32x512x128_S32x1024x128_2_1_1_2_0_0_wf : DotDims.WF S32x1024x512 S32x512x128 S32x1024x128 [2] [1] [1] [2] [0] [0]
  dot_S32x1024x512_S32x1024x128_S32x512x128_1_1_2_2_0_0_wf : DotDims.WF S32x1024x512 S32x1024x128 S32x512x128 [1] [1] [2] [2] [0] [0]

variable [Facts₀]

def dot_S32x1024x128_S32x512x128_S32x1024x512_2_2_1_1_0_0 : DotDims S32x1024x128 S32x512x128 S32x1024x512 where
  lhsContracting := [2]
  rhsContracting := [2]
  lhsNonContracting := [1]
  rhsNonContracting := [1]
  lhsBatch := [0]
  rhsBatch := [0]
  wf := dot_S32x1024x128_S32x512x128_S32x1024x512_2_2_1_1_0_0_wf
def dot_S32x1024x512_S32x512x128_S32x1024x128_2_1_1_2_0_0 : DotDims S32x1024x512 S32x512x128 S32x1024x128 where
  lhsContracting := [2]
  rhsContracting := [1]
  lhsNonContracting := [1]
  rhsNonContracting := [2]
  lhsBatch := [0]
  rhsBatch := [0]
  wf := dot_S32x1024x512_S32x512x128_S32x1024x128_2_1_1_2_0_0_wf
def dot_S32x1024x512_S32x1024x128_S32x512x128_1_1_2_2_0_0 : DotDims S32x1024x512 S32x1024x128 S32x512x128 where
  lhsContracting := [1]
  rhsContracting := [1]
  lhsNonContracting := [2]
  rhsNonContracting := [2]
  lhsBatch := [0]
  rhsBatch := [0]
  wf := dot_S32x1024x512_S32x1024x128_S32x512x128_1_1_2_2_0_0_wf

class Facts : Prop extends Facts₀ where

variable [Facts]
-- ==== Proof.Spec.lean ====
/-
  Context–query attention for ONE batch element, on the extended reals.

  From a context block `C` (feature × context position), a query block `Q` (feature × query position) and a weight
  block `W` (context position × three bands of 128 features) the similarity of context position `c` and query
  position `q` is the trilinear form
      score c q = ∑ d, wQ c d · Q d q  +  ∑ d, (wCQ c d · C d c) · Q d q  +  ∑ d, wC c d · C d c,
  its three weight bands being columns 0–127, 256–383 and 128–255 of `W`. Each softmax subtracts the greatest entry of
  its row (of its column), started from the f32 pattern of −∞, exponentiates and divides by the sum. With
  `rowSoft` the softmax over query positions and `colSoft` the one over context positions,
      c2q c d = ∑ q, rowSoft c q · Q d q,     colCtx q d = ∑ c, colSoft c q · C d c,     q2c c d = ∑ q, rowSoft c q · colCtx q d,
  and the result stacks, feature-major, the four bands  C,  c2q,  C · c2q,  C · q2c.
  Every sum is a finite sum of extended reals; no law beyond commutativity and associativity of + is ever used
  of them, so nothing here asks the inputs to be finite.
-/
import Idealize.ShloMosaic.Lib.ValueIdx
import Idealize.ShloMosaic.PureOps.Ideal.Laws

open scoped BigOperators

noncomputable section

namespace CQAttention

open Idealize.ShloMosaic Idealize.ShloMosaic.ValueIdx

/-- The value both programs start their maxima from: the f32 pattern of −∞ read at the ideal values. It is the same
    word on both sides and is never evaluated. -/
abbrev negInf : EReal := Ideal.ofBits .f32 0xFF800000#32

section Batch

variable (C : Fin 128 → Fin 1024 → EReal) (Q : Fin 128 → Fin 512 → EReal) (W : Fin 1024 → Fin 384 → EReal)

/-- The weight band that meets the query alone: columns 0–127. -/
def wQ (c : Fin 1024) (d : Fin 128) : EReal := W c ⟨d.val, by have := d.isLt; omega⟩
/-- The weight band that meets the context alone: columns 128–255. -/
def wC (c : Fin 1024) (d : Fin 128) : EReal := W c ⟨128 + d.val, by have := d.isLt; omega⟩
/-- The weight band that meets the product of context and query: columns 256–383. -/
def wCQ (c : Fin 1024) (d : Fin 128) : EReal := W c ⟨256 + d.val, by have := d.isLt; omega⟩

/-- The trilinear similarity of context position `c` and query position `q`. -/
def score (c : Fin 1024) (q : Fin 512) : EReal :=
  (∑ d : Fin 128, wQ W c d * Q d q + ∑ d : Fin 128, (wCQ W c d * C d c) * Q d q) + ∑ d : Fin 128, wC W c d * C d c

/-- The greatest similarity of a context position over the query positions, from −∞ (taken once more against −∞, as
    both programs do). -/
def rowTop (c : Fin 1024) : EReal :=
  max negInf ((Finset.univ : Finset (Fin 512)).fold max negInf fun q => score C Q W c q)
/-- The greatest similarity of a query position over the context positions, likewise. -/
def colTop (q : Fin 512) : EReal :=
  max negInf ((Finset.univ : Finset (Fin 1024)).fold max negInf fun c => score C Q W c q)

def rowExp (c : Fin 1024) (q : Fin 512) : EReal := Ideal.exp (score C Q W c q - rowTop C Q W c)
def colExp (c : Fin 1024) (q : Fin 512) : EReal := Ideal.exp (score C Q W c q - colTop C Q W q)

/-- The softmax over query positions. -/
def rowSoft (c : Fin 1024) (q : Fin 512) : EReal := Ideal.div (rowExp C Q W c q) (∑ q' : Fin 512, rowExp C Q W c q')
/-- The softmax over context positions. -/
def colSoft (c : Fin 1024) (q : Fin 512) : EReal := Ideal.div (colExp C Q W c q) (∑ c' : Fin 1024, colExp C Q W c' q)

/-- Context-to-query attention: each context position's average of the query features. -/
def c2q (c : Fin 1024) (d : Fin 128) : EReal := ∑ q : Fin 512, rowSoft C Q W c q * Q d q
/-- Each query position's average of the context features, under the softmax over context positions. -/
def colCtx (q : Fin 512) (d : Fin 128) : EReal := ∑ c : Fin 1024, colSoft C Q W c q * C d c
/-- Query-to-context attention, reassociated: the row softmax applied to `colCtx`. -/
def q2c (c : Fin 1024) (d : Fin 128) : EReal := ∑ q : Fin 512, rowSoft C Q W c q * colCtx C Q W q d

/-- The four bands of the result at context position `c`, by the band the feature `f` falls in. -/
def feat (f : Fin 512) (c : Fin 1024) : EReal :=
  if h0 : f.val < 128 then C ⟨f.val, h0⟩ c
  else if h1 : f.val < 256 then c2q C Q W c ⟨f.val - 128, by omega⟩
  else if h2 : f.val < 384 then C ⟨f.val - 256, by omega⟩ c * c2q C Q W c ⟨f.val - 256, by omega⟩
  else C ⟨f.val - 384, by have := f.isLt; omega⟩ c * q2c C Q W c ⟨f.val - 384, by have := f.isLt; omega⟩

/-- The first band is the context itself. -/
theorem feat_band0 (f : Fin 512) (c : Fin 1024) (h0 : f.val < 128) : feat C Q W f c = C ⟨f.val, h0⟩ c := by
  unfold feat; rw [dif_pos h0]

/-- The second band is the context-to-query attention. -/
theorem feat_band1 (f : Fin 512) (c : Fin 1024) (h0 : ¬f.val < 128) (h1 : f.val < 256) :
    feat C Q W f c = c2q C Q W c ⟨f.val - 128, by omega⟩ := by
  unfold feat; rw [dif_neg h0, dif_pos h1]

/-- The third band is the context times the context-to-query attention. -/
theorem feat_band2 (f : Fin 512) (c : Fin 1024) (h1 : ¬f.val < 256) (h2 : f.val < 384) :
    feat C Q W f c = C ⟨f.val - 256, by omega⟩ c * c2q C Q W c ⟨f.val - 256, by omega⟩ := by
  unfold feat; rw [dif_neg (by omega), dif_neg h1, dif_pos h2]

/-- The fourth band is the context times the query-to-context attention. -/
theorem feat_band3 (f : Fin 512) (c : Fin 1024) (h2 : ¬f.val < 384) :
    feat C Q W f c = C ⟨f.val - 384, by have := f.isLt; omega⟩ c * q2c C Q W c ⟨f.val - 384, by have := f.isLt; omega⟩ := by
  unfold feat; rw [dif_neg (by omega), dif_neg (by omega), dif_neg h2]

end Batch

/-- The whole result, from the context and query arrays and the weight array already cast to `[32, 1024, 384]` (both
    programs begin with that cast): batch `b` of the result is `feat` of batch `b` of the three. -/
def resultOf (Carr : (⟨3, ![32, 128, 1024]⟩ : Shape).Idx → EReal) (Qarr : (⟨3, ![32, 128, 512]⟩ : Shape).Idx → EReal)
    (Wr : (⟨3, ![32, 1024, 384]⟩ : Shape).Idx → EReal) : (⟨3, ![32, 512, 1024]⟩ : Shape).Idx → EReal := fun i =>
  feat (fun d c => Carr (ix3 (i 0) d c)) (fun d q => Qarr (ix3 (i 0) d q)) (fun c j => Wr (ix3 (i 0) c j)) (i 1) (i 2)

end CQAttention

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.LibMatrixRead.lean ====
/-
  Matrices read at coordinates, at any extents: the few readings of two-dimensional vector operations that come up
  whenever a row-wise or column-wise statistic is spread back over a matrix, and a band of a concatenation along
  the last axis.

  • a vector cast to one COLUMN, and one column broadcast over many: `(shapeCast v) (i, 0) = v i` and
    `(broadcastTo w) (i, j) = w (i, 0)`;
  • a sum or a maximum along the rows or along the columns of a matrix, at the ideal values, as the `Fin`-indexed sum
    (the fold of `max` from the accumulator's value) over the coordinate that is dropped;
  • a concatenation of pieces along the LAST axis of a matrix or of a stack of matrices, read inside piece number `k`
    at the column less the widths of the pieces before it.
-/
import Idealize.ShloMosaic.Lib.ValueLayout
import Idealize.ShloMosaic.PureOps.Ideal.Laws

open scoped BigOperators

namespace Idealize.ShloMosaic.MatrixRead

open Idealize.ShloMosaic Idealize.ShloMosaic.ValueIdx

variable {α : Type}

/-! ## One column -/

/-- A vector of `a` entries cast to one column reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums and maxima along one axis of a matrix -/

/-- Putting column `k` back into a row index gives `(i, k)`. -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Putting row `k` back into a column index gives `(k, j)`. -/
theorem lift_col {a b : ℕ} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

variable {φ : FTy}

/-- The sum along a row, at the ideal values. -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The sum along a column, at the ideal values. -/
theorem colSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

/-- The maximum along a row, at the ideal values: the fold of `max` from the accumulator's value. -/
theorem rowMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) := by
  rw [Ideal.multiReduction_maximumf_single]
  have e : (src ∘ h.lift (ix1 i)) = fun k : Fin b => src (ix2 i k) := funext fun k => congrArg src (lift_row h i k)
  exact congrArg (fun f => Finset.fold max (Ideal.ofBits φ acc) f (Finset.univ : Finset (Fin b))) e

/-- The maximum along a column, at the ideal values. -/
theorem colMax_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) := by
  rw [Ideal.multiReduction_maximumf_single]
  have e : (src ∘ h.lift (ix1 j)) = fun k : Fin a => src (ix2 k j) := funext fun k => congrArg src (lift_col h j k)
  exact congrArg (fun f => Finset.fold max (Ideal.ofBits φ acc) f (Finset.univ : Finset (Fin a))) e

/-! ## A host reduction with a maximum body over one axis of a stack of matrices -/

/-- Putting the last coordinate `k` back into `(i, j)` gives `(i, j, k)`. -/
theorem lift3_last {e a b : ℕ} (h : (⟨3, ![e, a, b]⟩ : Shape).Reduces [2] ⟨2, ![e, a]⟩) (i : Fin e) (j : Fin a) (k : Fin b) :
    h.lift (ix2 i j) k = ix3 i j k := by
  funext c; apply Fin.ext
  match c with
  | ⟨0, _⟩ => rfl
  | ⟨1, _⟩ => rfl
  | ⟨2, _⟩ => rfl

/-- Putting the middle coordinate `k` back into `(i, j)` gives `(i, k, j)`. -/
theorem lift3_mid {e a b : ℕ} (h : (⟨3, ![e, a, b]⟩ : Shape).Reduces [1] ⟨2, ![e, b]⟩) (i : Fin e) (j : Fin b) (k : Fin a) :
    h.lift (ix2 i j) k = ix3 i k j := by
  funext c; apply Fin.ext
  match c with
  | ⟨0, _⟩ => rfl
  | ⟨1, _⟩ => rfl
  | ⟨2, _⟩ => rfl

/-- The host's maximum over the LAST axis, from a constant: the fold of `max` from the constant's value over the last
    coordinate. -/
theorem hostMaxLast3 {e a b : ℕ} (x : FVec Ideal ⟨3, ![e, a, b]⟩ .f32) (w : BitVec 32)
    (h' : (⟨3, ![e, a, b]⟩ : Shape).ReducesTo [2] ⟨2, ![e, a]⟩) (h : (⟨3, ![e, a, b]⟩ : Shape).Reduces [2] ⟨2, ![e, a]⟩)
    (hu : 0 < (⟨0, ![]⟩ : Shape).numel) (i : Fin e) (j : Fin a) :
    Host.reduce FloatOps.maximumf x (constant (⟨0, ![]⟩ : Shape) .f32 w) h' hu (ix2 i j)
      = (Finset.univ : Finset (Fin b)).fold max (Ideal.ofBits .f32 w) fun k => x (ix3 i j k) := by
  rw [Host.reduce_eq_fold_single FloatOps.maximumf x _ h' h hu]
  have hf : (x ∘ h.lift (ix2 i j)) = fun k : Fin b => x (ix3 i j k) := funext fun k => congrArg x (lift3_last h i j k)
  exact congrArg (fun f => Finset.fold max (Ideal.ofBits .f32 w) f (Finset.univ : Finset (Fin b))) hf

/-- The host's maximum over the MIDDLE axis, from a constant. -/
theorem hostMaxMid3 {e a b : ℕ} (x : FVec Ideal ⟨3, ![e, a, b]⟩ .f32) (w : BitVec 32)
    (h' : (⟨3, ![e, a, b]⟩ : Shape).ReducesTo [1] ⟨2, ![e, b]⟩) (h : (⟨3, ![e, a, b]⟩ : Shape).Reduces [1] ⟨2, ![e, b]⟩)
    (hu : 0 < (⟨0, ![]⟩ : Shape).numel) (i : Fin e) (j : Fin b) :
    Host.reduce FloatOps.maximumf x (constant (⟨0, ![]⟩ : Shape) .f32 w) h' hu (ix2 i j)
      = (Finset.univ : Finset (Fin a)).fold max (Ideal.ofBits .f32 w) fun k => x (ix3 i k j) := by
  rw [Host.reduce_eq_fold_single FloatOps.maximumf x _ h' h hu]
  have hf : (x ∘ h.lift (ix2 i j)) = fun k : Fin a => x (ix3 i k j) := funext fun k => congrArg x (lift3_mid h i j k)
  exact congrArg (fun f => Finset.fold max (Ideal.ofBits .f32 w) f (Finset.univ : Finset (Fin a))) hf

/-! ## A band of a concatenation along the last axis -/

/-- Matrices of `a` rows laid side by side: inside piece number `k`, `n` columns wide, whose left edge is at column
    `pre`, the concatenation at `(i, pre + j)` is the piece at `(i, j)`. -/
theorem concat_cols_apply {a m n : ℕ} (xs : List ((s : Shape) × (s.Idx → α)))
    (h : Shape.Concatenates (xs.map (·.1)) ⟨2, ![a, m]⟩ 1) (k : Nat) (hk : k < xs.length)
    (x : (⟨2, ![a, n]⟩ : Shape).Idx → α) (hxk : xs[k] = ⟨⟨2, ![a, n]⟩, x⟩) (pre : Nat)
    (hpre : (((xs.take k).map (·.1)).map fun s => if h : s.rank = (⟨2, ![a, m]⟩ : Shape).rank then s.size ((1 : Fin 2).cast h.symm) else 0).sum = pre)
    (i : Fin a) (j : Fin n) (c : Fin m) (hc : pre + j.val = c.val) :
    concatenate ⟨2, ![a, m]⟩ 1 xs h (ix2 i c) = x (ix2 i j) := by
  refine concatenate_apply_piece (t := ⟨2, ![a, m]⟩) (a := (1 : Fin 2)) xs h (ix2 i c) k hk ⟨2, ![a, n]⟩ x hxk rfl pre hpre
    (ix2 i j) ?_ ?_
  · intro b hb
    match b with
    | ⟨0, _⟩ => rfl
    | ⟨1, _⟩ => exact absurd rfl hb
  · exact hc

/-- The same for stacks of matrices: pieces of shape `[e, a, n]` joined along the last axis. -/
theorem concat_last3_apply {e a m n : ℕ} (xs : List ((s : Shape) × (s.Idx → α)))
    (h : Shape.Concatenates (xs.map (·.1)) ⟨3, ![e, a, m]⟩ 2) (k : Nat) (hk : k < xs.length)
    (x : (⟨3, ![e, a, n]⟩ : Shape).Idx → α) (hxk : xs[k] = ⟨⟨3, ![e, a, n]⟩, x⟩) (pre : Nat)
    (hpre : (((xs.take k).map (·.1)).map fun s => if h : s.rank = (⟨3, ![e, a, m]⟩ : Shape).rank then s.size ((2 : Fin 3).cast h.symm) else 0).sum = pre)
    (b : Fin e) (i : Fin a) (j : Fin n) (c : Fin m) (hc : pre + j.val = c.val) :
    concatenate ⟨3, ![e, a, m]⟩ 2 xs h (ix3 b i c) = x (ix3 b i j) := by
  refine concatenate_apply_piece (t := ⟨3, ![e, a, m]⟩) (a := (2 : Fin 3)) xs h (ix3 b i c) k hk ⟨3, ![e, a, n]⟩ x hxk rfl pre hpre
    (ix3 b i j) ?_ ?_
  · intro d hd
    match d with
    | ⟨0, _⟩ => rfl
    | ⟨1, _⟩ => rfl
    | ⟨2, _⟩ => exact absurd rfl hd
  · exact hc

end Idealize.ShloMosaic.MatrixRead
-- ==== Proof.KernelBody.lean ====
/-
  What the kernel's body stores for one batch element: the context–query attention (`CQAttention.feat`) of its three
  loaded blocks.

  The body loads a context block `[1, 128, 1024]`, a query block `[1, 128, 512]` and a weight block `[1, 1024, 384]`.
  Read by coordinates these are `C d c`, `Q d q` and `W c j`. Its arithmetic then runs in the order of the
  specification: the similarity matrix is two matrix products into a zero accumulator (a change of float format
  before each is the identity at the ideal values) plus a row sum spread over the columns; each softmax is a
  maximum along an axis from −∞, a subtraction, an exponential, a sum along the same axis and a quotient; the three
  attention products are again matrix products into zero; and what is stored is the transpose of the four bands
  laid side by side. Each step below reads one of these at a pair of coordinates.
-/
import proofs.«140836_j15101105013508_1_alg».proof.Proof.Gen.KernelIdeal.Skeleton
import proofs.«140836_j15101105013508_1_alg».proof.Proof.Spec
import proofs.«140836_j15101105013508_1_alg».proof.Proof.LibPlainDot
import proofs.«140836_j15101105013508_1_alg».proof.Proof.LibMatrixRead

open scoped BigOperators

noncomputable section

namespace Cert.KernelIdeal.Body

open Cert.KernelIdeal Cert.KernelIdeal.Gen Idealize.ShloMosaic Idealize.ShloMosaic.ValueIdx
open Idealize.ShloMosaic.MatrixRead CQAttention

/-- The exponential of a vector, at an element. -/
theorem exp_apply {s : Shape} {φ : FTy} (x : FVec Ideal s φ) (i : s.Idx) : exp x i = Ideal.exp (x i) := rfl

variable (x0 : Vec Ideal S1x128x1024 .f32) (x1 : Vec Ideal S1x128x512 .f32) (x2 : Vec Ideal S1x1024x384 .f32)

/-- The context block by coordinates: feature `d`, context position `c`. -/
abbrev ctx : Fin 128 → Fin 1024 → EReal := fun d c => x0 (ix3 (0 : Fin 1) d c)
/-- The query block by coordinates: feature `d`, query position `q`. -/
abbrev qry : Fin 128 → Fin 512 → EReal := fun d q => x1 (ix3 (0 : Fin 1) d q)
/-- The weight block by coordinates: context position `c`, column `j`. -/
abbrev wgt : Fin 1024 → Fin 384 → EReal := fun c j => x2 (ix3 (0 : Fin 1) c j)

/-! ## The loaded blocks, re-laid -/

/-- The context block transposed: position-major. -/
theorem ctxT_apply (c : Fin 1024) (d : Fin 128) : k0_pay3 (F := Ideal) x0 (ix2 c d) = ctx x0 d c := by
  unfold k0_pay3
  exact (transpose_ix2_apply _ _ c d).trans (shapeCast_1ab_ab_apply _ _ d c)

/-- The query block with its unit axis dropped. -/
theorem qry_apply (d : Fin 128) (q : Fin 512) : k0_pay2 (F := Ideal) x1 (ix2 d q) = qry x1 d q := by
  unfold k0_pay2
  exact shapeCast_1ab_ab_apply _ _ d q

/-- The query block transposed: position-major. -/
theorem qryT_apply (q : Fin 512) (d : Fin 128) : k0_pay4 (F := Ideal) x1 (ix2 q d) = qry x1 d q := by
  unfold k0_pay4
  exact (transpose_ix2_apply _ _ q d).trans (qry_apply x1 d q)

/-! ## The three matrix products of the body, each at a pair of coordinates

All three are plain products into a zero accumulator; the contracted axis has 128, 512 or 1024 positions. -/

/-- `[1024, 128] × [128, 512]`: a sum over the 128 features. -/
theorem dot_feat (l : FVec Ideal S1024x128 .bf16) (r : FVec Ideal S128x512 .bf16) (c : Fin 1024) (q : Fin 512) :
    matmul dot_S1024x128_S128x512_S1024x512_1_0_0_1_n_n none l r (constant S1024x512 .f32 0x00000000#32) (ix2 c q)
      = ∑ d : Fin 128, l (ix2 c d) * r (ix2 d q) :=
  PlainDot.matmul_zero_apply dot_S1024x128_S128x512_S1024x512_1_0_0_1_n_n rfl rfl rfl rfl rfl rfl rfl rfl none l r c q

/-- `[1024, 512] × [512, 128]`: a sum over the 512 query positions. -/
theorem dot_qpos (l : FVec Ideal S1024x512 .bf16) (r : FVec Ideal S512x128 .bf16) (c : Fin 1024) (d : Fin 128) :
    matmul dot_S1024x512_S512x128_S1024x128_1_0_0_1_n_n none l r (constant S1024x128 .f32 0x00000000#32) (ix2 c d)
      = ∑ q : Fin 512, l (ix2 c q) * r (ix2 q d) :=
  PlainDot.matmul_zero_apply dot_S1024x512_S512x128_S1024x128_1_0_0_1_n_n rfl rfl rfl rfl rfl rfl rfl rfl none l r c d

/-- `[512, 1024] × [1024, 128]`: a sum over the 1024 context positions. -/
theorem dot_cpos (l : FVec Ideal S512x1024 .bf16) (r : FVec Ideal S1024x128 .bf16) (q : Fin 512) (d : Fin 128) :
    matmul dot_S512x1024_S1024x128_S512x128_1_0_0_1_n_n none l r (constant S512x128 .f32 0x00000000#32) (ix2 q d)
      = ∑ c : Fin 1024, l (ix2 q c) * r (ix2 c d) :=
  PlainDot.matmul_zero_apply dot_S512x1024_S1024x128_S512x128_1_0_0_1_n_n rfl rfl rfl rfl rfl rfl rfl rfl none l r q d

/-- The three bands of the weight block, with its unit axis dropped, at `(c, d)`. -/
theorem band_apply (o : Nat) (ho : o + 128 ≤ 384) (h : S1024x384.Slices ![0, o] S1024x128) (hc : S1x1024x384.ShapeCasts S1024x384)
    (c : Fin 1024) (d : Fin 128) :
    extractStridedSlice S1024x128 ![0, o] (shapeCast S1024x384 x2 hc) h (ix2 c d)
      = wgt x2 c ⟨o + d.val, by have := d.isLt; omega⟩ :=
  (slice2_axis1_apply o _ h c d ⟨o + d.val, by have := d.isLt; omega⟩ rfl).trans (shapeCast_1ab_ab_apply _ _ c _)

/-! ## The similarity -/

/-- The similarity matrix at `(c, q)`: the product of the first weight band with the query, the product of the third
    band times the context with the query, and the row sum of the second band times the context. -/
theorem score_apply (c : Fin 1024) (q : Fin 512) :
    k0_pay5 (F := Ideal) x0 x1 x2 (ix2 c q) = score (ctx x0) (qry x1) (wgt x2) c q := by
  unfold k0_pay5 score
  dsimp only
  rw [addf_apply, addf_apply, dot_feat, dot_feat]
  refine congrArg₂ (· + ·) (congrArg₂ (· + ·) ?_ ?_) ?_
  · refine Finset.sum_congr rfl fun d _ => ?_
    rw [truncf_apply, truncf_apply, qry_apply, band_apply x2 0 (by omega)]
    exact congrArg₂ (· * ·) (congrArg (wgt x2 c) (Fin.ext (Nat.zero_add _))) rfl
  · refine Finset.sum_congr rfl fun d _ => ?_
    rw [truncf_apply, truncf_apply, qry_apply, mulf_apply, ctxT_apply, band_apply x2 256 (by omega)]
    rfl
  · refine (broadcastTo_a1_ab_apply _ _ c q).trans ((shapeCast_a_a1_apply _ _ c 0).trans
      ((rowSum_apply _ _ _ _ _ c).trans (Finset.sum_congr rfl fun d _ => ?_)))
    rw [mulf_apply, ctxT_apply, band_apply x2 128 (by omega)]
    rfl

/-! ## The two softmaxes -/

/-- Over any matrix `S`: the exponential of each entry less its ROW's greatest entry (started from −∞ and taken once more
    against −∞). -/
theorem rowShiftExp_apply (S : FVec Ideal S1024x512 .f32) (hr : S1024x512.Reduces [1] S1024) (hc : S1024.ShapeCasts S1024x1)
    (hb : S1024x1.Broadcasts S1024x512) (hφ : FKind.Formats .f32) (hacc : (0xFF800000#32 : BitVec 32) = FKind.maximumf.neutral .f32 hφ)
    (c : Fin 1024) (q : Fin 512) :
    exp (subf S (broadcastTo S1024x512 (shapeCast S1024x1 (maximumf (broadcast S1024 (Scalar.ofBits .f32 0xFF800000#32))
        (multiReduction .maximumf [1] S1024 S 0xFF800000#32 hr hφ hacc)) hc) hb)) (ix2 c q)
      = Ideal.exp (S (ix2 c q) - max negInf ((Finset.univ : Finset (Fin 512)).fold max negInf fun q' => S (ix2 c q'))) := by
  rw [exp_apply, subf_apply, broadcastTo_a1_ab_apply, shapeCast_a_a1_apply, maximumf_apply, rowMax_apply]
  rfl

/-- Over any matrix `S`: the exponential of each entry less its COLUMN's greatest entry. -/
theorem colShiftExp_apply (S : FVec Ideal S1024x512 .f32) (hr : S1024x512.Reduces [0] S512) (hc : S512.ShapeCasts S1x512)
    (hb : S1x512.Broadcasts S1024x512) (hφ : FKind.Formats .f32) (hacc : (0xFF800000#32 : BitVec 32) = FKind.maximumf.neutral .f32 hφ)
    (c : Fin 1024) (q : Fin 512) :
    exp (subf S (broadcastTo S1024x512 (shapeCast S1x512 (maximumf (broadcast S512 (Scalar.ofBits .f32 0xFF800000#32))
        (multiReduction .maximumf [0] S512 S 0xFF800000#32 hr hφ hacc)) hc) hb)) (ix2 c q)
      = Ideal.exp (S (ix2 c q) - max negInf ((Finset.univ : Finset (Fin 1024)).fold max negInf fun c' => S (ix2 c' q))) := by
  rw [exp_apply, subf_apply, broadcastTo_1b_ab_apply, shapeCast_a_1a_apply, maximumf_apply, colMax_apply]
  rfl

/-- The softmax over query positions, at `(c, q)`. -/
theorem rowSoft_apply (c : Fin 1024) (q : Fin 512) :
    k0_pay6 (F := Ideal) x0 x1 x2 (ix2 c q) = rowSoft (ctx x0) (qry x1) (wgt x2) c q := by
  unfold k0_pay6 rowSoft rowExp rowTop
  dsimp only
  refine (divf_apply _ _ _).trans (congrArg₂ Ideal.div ?_ ?_)
  · exact (rowShiftExp_apply _ _ _ _ _ _ c q).trans (by simp only [score_apply])
  · refine (broadcastTo_a1_ab_apply _ _ c q).trans ((shapeCast_a_a1_apply _ _ c 0).trans
      ((rowSum_apply _ _ _ _ _ c).trans (Finset.sum_congr rfl fun q' _ => ?_)))
    exact (rowShiftExp_apply _ _ _ _ _ _ c q').trans (by simp only [score_apply])

/-- The exponentials of the softmax over context positions, at `(c, q)`. -/
theorem colExp_apply (c : Fin 1024) (q : Fin 512) :
    k0_pay7 (F := Ideal) x0 x1 x2 (ix2 c q) = colExp (ctx x0) (qry x1) (wgt x2) c q := by
  unfold k0_pay7 colExp colTop
  dsimp only
  exact (colShiftExp_apply _ _ _ _ _ _ c q).trans (by simp only [score_apply])

/-! ## The attention products and the four bands

The rest of the body, over any four matrices that hold, at each pair of coordinates, the transposed context, the
transposed query, the row softmax and the column exponentials. -/

section Tail

variable (C : Fin 128 → Fin 1024 → EReal) (Q : Fin 128 → Fin 512 → EReal) (W : Fin 1024 → Fin 384 → EReal)
variable (v6 : FVec Ideal S1024x128 .f32) (v7 : FVec Ideal S512x128 .f32) (v33 v40 : FVec Ideal S1024x512 .f32)

/-- The softmax over context positions from its exponentials: the quotient by the column's sum. -/
theorem colSoft_of (h40 : ∀ c q, v40 (ix2 c q) = colExp C Q W c q) (hr : S1024x512.Reduces [0] S512) (hc : S512.ShapeCasts S1x512)
    (hb : S1x512.Broadcasts S1024x512) (hφ : FKind.Formats .f32) (hacc : (0x00000000#32 : BitVec 32) = FKind.add.neutral .f32 hφ)
    (c : Fin 1024) (q : Fin 512) :
    divf v40 (broadcastTo S1024x512 (shapeCast S1x512 (multiReduction .add [0] S512 v40 0x00000000#32 hr hφ hacc) hc) hb) (ix2 c q)
      = colSoft C Q W c q := by
  unfold colSoft
  refine (divf_apply _ _ _).trans (congrArg₂ Ideal.div (h40 c q) ?_)
  exact (broadcastTo_1b_ab_apply _ _ c q).trans ((shapeCast_a_1a_apply _ _ 0 q).trans
    ((colSum_apply _ _ _ _ _ q).trans (Finset.sum_congr rfl fun c' _ => h40 c' q)))

variable (h6 : ∀ c d, v6 (ix2 c d) = C d c) (h7 : ∀ q d, v7 (ix2 q d) = Q d q)
  (h33 : ∀ c q, v33 (ix2 c q) = rowSoft C Q W c q) (h40 : ∀ c q, v40 (ix2 c q) = colExp C Q W c q)

include h6 h7 h33 h40

/-- What the body stores, at feature `f` and context position `c`: the band of `feat` that `f` falls in. -/
theorem tail_apply (f : Fin 512) (c : Fin 1024) :
    k0_pay1 (F := Ideal) v6 v7 v33 v40 (ix3 (0 : Fin 1) f c) = feat C Q W f c := by
  unfold k0_pay1
  dsimp only
  refine (shapeCast_ab_1ab_apply _ _ 0 f c).trans ((transpose_ix2_apply _ _ f c).trans ?_)
  -- the context-to-query attention, wherever it is read
  have hA : ∀ (j : Fin 128), matmul dot_S1024x512_S512x128_S1024x128_1_0_0_1_n_n none (truncf .bf16 v33 bitsLt_bf16_f32)
      (truncf .bf16 v7 bitsLt_bf16_f32) (constant S1024x128 .f32 0x00000000#32) (ix2 c j) = c2q C Q W c j := fun j =>
    (dot_qpos _ _ c j).trans (Finset.sum_congr rfl fun q _ => congrArg₂ (· * ·) (h33 c q) (h7 q j))
  by_cases h0 : f.val < 128
  · rw [feat_band0 C Q W f c h0]
    exact (concat_cols_apply _ _ 0 (by show (0 : ℕ) < 4; decide) v6 rfl 0 rfl c ⟨f.val, h0⟩ f (Nat.zero_add _)).trans (h6 c _)
  by_cases h1 : f.val < 256
  · rw [feat_band1 C Q W f c h0 h1]
    exact (concat_cols_apply _ _ 1 (by show (1 : ℕ) < 4; decide) _ rfl 128 rfl c ⟨f.val - 128, by omega⟩ f (by show 128 + (f.val - 128) = f.val; omega)).trans
      (hA _)
  by_cases h2 : f.val < 384
  · rw [feat_band2 C Q W f c h1 h2]
    exact (concat_cols_apply _ _ 2 (by show (2 : ℕ) < 4; decide) _ rfl 256 rfl c ⟨f.val - 256, by omega⟩ f (by show 256 + (f.val - 256) = f.val; omega)).trans
      ((mulf_apply _ _ _).trans (congrArg₂ (· * ·) (h6 c _) (hA _)))
  · rw [feat_band3 C Q W f c h2]
    refine (concat_cols_apply _ _ 3 (by show (3 : ℕ) < 4; decide) _ rfl 384 rfl c ⟨f.val - 384, by have := f.isLt; omega⟩ f
      (by show 384 + (f.val - 384) = f.val; omega)).trans ((mulf_apply _ _ _).trans (congrArg₂ (· * ·) (h6 c _) ?_))
    refine (dot_qpos _ _ c _).trans (Finset.sum_congr rfl fun q _ => congrArg₂ (· * ·) (h33 c q) ?_)
    refine (dot_cpos _ _ q _).trans (Finset.sum_congr rfl fun c' _ => congrArg₂ (· * ·) ?_ (h6 c' _))
    exact (transpose_ix2_apply _ _ q c').trans (colSoft_of C Q W v40 h40 _ _ _ _ _ c' q)

end Tail

/-- THE BODY'S RESULT: from blocks `x0`, `x1`, `x2` the stored block is, at `(0, f, c)`, the attention `feat` of the three
    blocks read by coordinates. -/
theorem stored_apply (f : Fin 512) (c : Fin 1024) :
    k0_pay1 (F := Ideal) (k0_pay3 x0) (k0_pay4 x1) (k0_pay6 x0 x1 x2) (k0_pay7 x0 x1 x2) (ix3 (0 : Fin 1) f c)
      = feat (ctx x0) (qry x1) (wgt x2) f c :=
  tail_apply (ctx x0) (qry x1) (wgt x2) _ _ _ _ (ctxT_apply x0) (qryT_apply x1) (rowSoft_apply x0 x1 x2) (colExp_apply x0 x1 x2) f c

end Cert.KernelIdeal.Body

end
-- ==== Proof.KernelArray.lean ====
/-
  From blocks to the array: after the run the kernel's result array is `CQAttention.resultOf` of the context array, the
  query array and the weight array cast to `[32, 1024, 384]`.

  The grid has one point per batch element, and every window moves with the batch index alone: at point `t` each
  of the four windows sits at block `(t, 0, 0)` of its array. So the three blocks the body loads at `t` are batch `t` of
  the three arrays, the block it stores is batch `t` of `resultOf` (the body's result, module KernelBody), and the 32
  stored blocks tile the result array.
-/
import proofs.«140836_j15101105013508_1_alg».proof.Proof.Gen.KernelIdeal.Value
import proofs.«140836_j15101105013508_1_alg».proof.Proof.KernelBody

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Idealize.ShloMosaic.StableHlo CQAttention
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at point `t` is `(t, 0, 0)`: the same batch for all four, nothing else moves. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 :=
  (by decide +kernel : ∀ t : Fin grid0.N, _)

/-- Every batch is some point's. -/
theorem idx_onto : ∀ b : Fin 32, ∃ t : Fin cfg0.N, win0_3.index t (0 : Fin 3) = b.val :=
  (by decide +kernel : ∀ b : Fin 32, ∃ t : Fin grid0.N, win0_3.index t (0 : Fin 3) = b.val)

/-- The weight array as the region finds it: the flat argument cast to `[32, 1024, 384]` by the one host operation
    before the region. -/
theorem V_weights (c : Dev nD) : (V m c main_v0 : S32x1024x384.Idx → EReal)
    = shapeCast S32x1024x384 (m ((c : Thread nD τ).loc main_arg2)) shapeCasts_S32768x1x384_S32x1024x384 := by
  dsimp only [V, hostOps0]; after_results; rfl

/-! ## The three loaded blocks are batch `t` of their arrays -/

theorem ctx_block (c : Dev nD) (t : Fin cfg0.N) (d : Fin 128) (p : Fin 1024) (k : S32x128x1024.Idx)
    (h0 : (k 0).val = win0_3.index t (0 : Fin 3)) (h1 : (k 1).val = d.val) (h2 : (k 2).val = p.val) :
    (iblk m c 0 t : Vec Ideal S1x128x1024 .f32) (ix3 (0 : Fin 1) d p) = (V m c main_arg0 : S32x128x1024.Idx → EReal) k := by
  obtain ⟨e00, e01, e02, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = (k 0).val; omega
  | ⟨1, _⟩ => show win0_0.index t (1 : Fin 3) * 128 + 1 * d.val = (k 1).val; omega
  | ⟨2, _⟩ => show win0_0.index t (2 : Fin 3) * 1024 + 1 * p.val = (k 2).val; omega

theorem qry_block (c : Dev nD) (t : Fin cfg0.N) (d : Fin 128) (q : Fin 512) (k : S32x128x512.Idx)
    (h0 : (k 0).val = win0_3.index t (0 : Fin 3)) (h1 : (k 1).val = d.val) (h2 : (k 2).val = q.val) :
    (iblk m c 1 t : Vec Ideal S1x128x512 .f32) (ix3 (0 : Fin 1) d q) = (V m c main_arg1 : S32x128x512.Idx → EReal) k := by
  obtain ⟨-, -, -, e10, e11, e12, -⟩ := idx_facts t
  unfold iblk
  rw [View.read_apply]
  show V m c main_arg1 _ = V m c main_arg1 _
  congr 1
  funext a; apply Fin.ext
  match a with
  | ⟨0, _⟩ => show win0_1.index t (0 : Fin 3) * 1 + 1 * 0 = (k 0).val; omega
  | ⟨1, _⟩ => show win0_1.index t (1 : Fin 3) * 128 + 1 * d.val = (k 1).val; omega
  | ⟨2, _⟩ => show win0_1.index t (2 : Fin 3) * 512 + 1 * q.val = (k 2).val; omega

theorem wgt_block (c : Dev nD) (t : Fin cfg0.N) (p : Fin 1024) (j : Fin 384) (k : S32x1024x384.Idx)
    (h0 : (k 0).val = win0_3.index t (0 : Fin 3)) (h1 : (k 1).val = p.val) (h2 : (k 2).val = j.val) :
    (iblk m c 2 t : Vec Ideal S1x1024x384 .f32) (ix3 (0 : Fin 1) p j) = (V m c main_v0 : S32x1024x384.Idx → EReal) k := by
  obtain ⟨-, -, -, -, -, -, e20, e21, e22, -⟩ := idx_facts t
  unfold iblk
  rw [View.read_apply]
  show V m c main_v0 _ = V m c main_v0 _
  congr 1
  funext a; apply Fin.ext
  match a with
  | ⟨0, _⟩ => show win0_2.index t (0 : Fin 3) * 1 + 1 * 0 = (k 0).val; omega
  | ⟨1, _⟩ => show win0_2.index t (1 : Fin 3) * 1024 + 1 * p.val = (k 1).val; omega
  | ⟨2, _⟩ => show win0_2.index t (2 : Fin 3) * 384 + 1 * j.val = (k 2).val; omega

/-! ## What a point writes back -/

/-- The result array the kernel ends with: the attention of the three arrays as the region finds them. -/
abbrev G (c : Dev nD) : S32x512x1024.Idx → EReal :=
  resultOf (V m c main_arg0) (V m c main_arg1) (V m c main_v0)

/-- `feat` of equal blocks is equal. -/
theorem feat_congr {C C' : Fin 128 → Fin 1024 → EReal} {Q Q' : Fin 128 → Fin 512 → EReal} {W W' : Fin 1024 → Fin 384 → EReal}
    (hC : C = C') (hQ : Q = Q') (hW : W = W') (f : Fin 512) (p : Fin 1024) : feat C Q W f p = feat C' Q' W' f p := by
  subst hC hQ hW; rfl

/-- A stored block over literal types: if `g` is `feat` of the three loaded blocks at every `(0, f, p)`, the stored block is `g`. -/
theorem block_eq (x0 : Vec Ideal S1x128x1024 .f32) (x1 : Vec Ideal S1x128x512 .f32) (x2 : Vec Ideal S1x1024x384 .f32)
    (g : S1x512x1024.Idx → EReal)
    (hg : ∀ (f : Fin 512) (p : Fin 1024), g (ix3 (0 : Fin 1) f p) = feat (Body.ctx x0) (Body.qry x1) (Body.wgt x2) f p) :
    k0_pay1 (F := Ideal) (k0_pay3 x0) (k0_pay4 x1) (k0_pay6 x0 x1 x2) (k0_pay7 x0 x1 x2) = g := by
  funext j
  obtain ⟨u, f, p, rfl⟩ : ∃ (u : Fin 1) (f : Fin 512) (p : Fin 1024), j = ix3 u f p := ⟨j 0, j 1, j 2, eq_ix3 j⟩
  obtain rfl : u = 0 := Subsingleton.elim _ _
  exact (Body.stored_apply x0 x1 x2 f p).trans (hg f p).symm

/-- WHAT POINT `t` WRITES BACK is block `t` of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz]
  simp only [View.ld_unit_zero (S := S1x128x1024) hz, View.ld_unit_zero (S := S1x128x512) hz, View.ld_unit_zero (S := S1x1024x384) hz]
  obtain ⟨-, -, -, -, -, -, -, -, -, e31, e32⟩ := idx_facts t
  refine block_eq (iblk m c 0 t) (iblk m c 1 t) (iblk m c 2 t) _ fun f p => ?_
  rw [View.read_apply]
  show resultOf (V m c main_arg0) (V m c main_arg1) (V m c main_v0) (((cfg0.win 3).blk t).view.emb (ix3 (0 : Fin 1) f p)) = _
  have hf : (((cfg0.win 3).blk t).view.emb (ix3 (0 : Fin 1) f p) : S32x512x1024.Idx) 1 = f :=
    Fin.ext (show win0_3.index t (1 : Fin 3) * 512 + 1 * f.val = f.val by omega)
  have hp : (((cfg0.win 3).blk t).view.emb (ix3 (0 : Fin 1) f p) : S32x512x1024.Idx) 2 = p :=
    Fin.ext (show win0_3.index t (2 : Fin 3) * 1024 + 1 * p.val = p.val by omega)
  have hb : ((((cfg0.win 3).blk t).view.emb (ix3 (0 : Fin 1) f p) : S32x512x1024.Idx) 0).val = win0_3.index t (0 : Fin 3) :=
    show win0_3.index t (0 : Fin 3) * 1 + 1 * 0 = _ by omega
  unfold resultOf
  rw [hf, hp]
  exact feat_congr
    (funext fun d => funext fun p' => (ctx_block m c t d p' _ hb rfl rfl).symm)
    (funext fun d => funext fun q => (qry_block m c t d q _ hb rfl rfl).symm)
    (funext fun p' => funext fun j => (wgt_block m c t p' j _ hb rfl rfl).symm) f p

/-! ## The array after the run -/

/-- An index of the result array is in point `t`'s block iff each coordinate is in the block's range on its axis. -/
theorem mem_blk (t : Fin cfg0.N) (i : S32x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v1).slice (win0_3.rect t)).set ↔ _
  rw [View.set_slice_whole, Rect.mem_set_unit]
  exact Iff.rfl

/-- The 32 stored blocks tile the result array, so it ends holding `G`. -/
theorem final (c : Dev nD) : (dats m 0 c).arrAt 3 cfg0.N = G m c :=
  (dats m 0 c).arrAt_eq_of_cover 3 (G m c) (fun t _ => flushed_eq m c t) fun i => by
    obtain ⟨t, ht⟩ := idx_onto (i 0)
    obtain ⟨-, -, -, -, -, -, -, -, -, e31, e32⟩ := idx_facts t
    refine ⟨t, flush0_3 t, ?_⟩
    rw [mem_blk]
    intro a
    have h1 : (i 1).val < 512 := (i 1).isLt
    have h2 : (i 2).val < 1024 := (i 2).isLt
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 512 ≤ (i 1).val ∧ (i 1).val < win0_3.index t (1 : Fin 3) * 512 + 512; omega
    | ⟨2, _⟩ => show win0_3.index t (2 : Fin 3) * 1024 ≤ (i 2).val ∧ (i 2).val < win0_3.index t (2 : Fin 3) * 1024 + 1024; omega

/-- The kernel's run, read: the result array ends at the attention of the three ARGUMENT arrays (the weight one cast),
    the arguments unchanged. -/
theorem run : θ_run defs (onTc (τ := τ) (main (F := Ideal))) ⟨m, fun _ => 0, ρ⟩ fun r => ∀ c : Dev nD,
      r.2.mem ((c : Thread nD τ).loc main_v1) = resultOf (m ((c : Thread nD τ).loc main_arg0)) (m ((c : Thread nD τ).loc main_arg1))
          (shapeCast S32x1024x384 (m ((c : Thread nD τ).loc main_arg2)) shapeCasts_S32768x1x384_S32x1024x384)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).1, final m c]
      show resultOf (V m c main_arg0) (V m c main_arg1) (V m c main_v0) = _
      rw [V_main_arg0, V_main_arg1, V_weights], (h c).2⟩)
    (Value.run_blocks m ρ)

end Cert.KernelIdeal.ArrayValue

end
-- ==== Proof.RefStages.lean ====
/-
  The reference, one stage at a time: each stage of its @main, read at coordinates `(b, ·, ·)`, is the stage of the
  same name of `CQAttention` for batch `b`.

  The reference works on whole arrays with a leading batch axis; every operation of it acts on each batch element
  by itself. Batch `b` of the context array is `C d c`, of the query array `Q d q`, and of the weight array cast to
  `[32, 1024, 384]` it is `W c j`. The similarity is summed in the order (first band · query + row sum) + third-band
  product, which differs from the specification's grouping by commutativity and associativity of + only. The two
  maxima are folds of `max` from −∞ over the reduced axis; the concatenation is read band by band.
-/
import proofs.«140836_j15101105013508_1_alg».proof.Proof.RefRead
import proofs.«140836_j15101105013508_1_alg».proof.Proof.Spec
import proofs.«140836_j15101105013508_1_alg».proof.Proof.LibMatrixRead

open scoped BigOperators

noncomputable section

namespace Cert.ReferenceIdeal.Stages

open Cert.ReferenceIdeal Cert.ReferenceIdeal.Gen Cert.ReferenceIdeal.ReadP Idealize.ShloMosaic Idealize.ShloMosaic.ValueIdx
open Idealize.ShloMosaic.MatrixRead CQAttention

/-- Two indices with the same coordinates. -/
macro "ix_ext" : tactic => `(tactic| (funext a; fin_cases a <;> rfl))

variable (x0 : (⟨S32x128x1024, .f32⟩ : BufTy).Contents (Elt Ideal)) (x1 : (⟨S32x128x512, .f32⟩ : BufTy).Contents (Elt Ideal))
  (x2 : (⟨S32768x1x384, .f32⟩ : BufTy).Contents (Elt Ideal))

/-- Batch `b` of the context array. -/
abbrev Cb (b : Fin 32) : Fin 128 → Fin 1024 → EReal := fun d c => x0 (ix3 b d c)
/-- Batch `b` of the query array. -/
abbrev Qb (b : Fin 32) : Fin 128 → Fin 512 → EReal := fun d q => x1 (ix3 b d q)
/-- Batch `b` of the weight array cast to `[32, 1024, 384]`. -/
abbrev Wb (b : Fin 32) : Fin 1024 → Fin 384 → EReal := fun c j => val_main_v2 (F := Ideal) x2 (ix3 b c j)

/-! ## The arrays re-laid -/

theorem ctxT_ref (b : Fin 32) (c : Fin 1024) (d : Fin 128) : val_main_v0 (F := Ideal) x0 (ix3 b c d) = Cb x0 b d c :=
  (val_main_v0_apply x0 _).trans (congrArg x0 (by ix_ext))

theorem qryT_ref (b : Fin 32) (q : Fin 512) (d : Fin 128) : val_main_v1 (F := Ideal) x1 (ix3 b q d) = Qb x1 b d q :=
  (val_main_v1_apply x1 _).trans (congrArg x1 (by ix_ext))

theorem band0_ref (b : Fin 32) (c : Fin 1024) (d : Fin 128) : val_main_v3 (F := Ideal) x2 (ix3 b c d) = wQ (Wb x2 b) c d :=
  (val_main_v3_apply x2 _).trans (congrArg (val_main_v2 (F := Ideal) x2) (by ix_ext))

theorem band1_ref (b : Fin 32) (c : Fin 1024) (d : Fin 128) : val_main_v4 (F := Ideal) x2 (ix3 b c d) = wC (Wb x2 b) c d :=
  (val_main_v4_apply x2 _).trans (congrArg (val_main_v2 (F := Ideal) x2) (by ix_ext))

theorem band2_ref (b : Fin 32) (c : Fin 1024) (d : Fin 128) : val_main_v5 (F := Ideal) x2 (ix3 b c d) = wCQ (Wb x2 b) c d :=
  (val_main_v5_apply x2 _).trans (congrArg (val_main_v2 (F := Ideal) x2) (by ix_ext))

/-! ## The similarity -/

theorem score_ref (b : Fin 32) (c : Fin 1024) (q : Fin 512) :
    val_main_v14 (F := Ideal) x0 x1 x2 (ix3 b c q) = score (Cb x0 b) (Qb x1 b) (Wb x2 b) c q := by
  have h6 : val_main_v6 (F := Ideal) x1 x2 (ix3 b c q) = ∑ d : Fin 128, wQ (Wb x2 b) c d * Qb x1 b d q := by
    rw [val_main_v6_apply]
    refine Finset.sum_congr rfl fun d _ => congrArg₂ (· * ·) ?_ ?_
    · exact (congrArg (val_main_v3 (F := Ideal) x2) (by ix_ext)).trans (band0_ref x2 b c d)
    · exact (congrArg (val_main_v1 (F := Ideal) x1) (by ix_ext)).trans (qryT_ref x1 b q d)
  have h13 : val_main_v13 (F := Ideal) x0 x1 x2 (ix3 b c q) = ∑ d : Fin 128, (wCQ (Wb x2 b) c d * Cb x0 b d c) * Qb x1 b d q := by
    rw [val_main_v13_apply]
    refine Finset.sum_congr rfl fun d _ => congrArg₂ (· * ·) ?_ ?_
    · refine (congrArg (val_main_v12 (F := Ideal) x0 x2) (show _ = ix3 b c d by ix_ext)).trans ?_
      rw [val_main_v12_apply, band2_ref, ctxT_ref]; rfl
    · exact (congrArg (val_main_v1 (F := Ideal) x1) (by ix_ext)).trans (qryT_ref x1 b q d)
  have h10 : val_main_v10 (F := Ideal) x0 x2 (ix3 b c q) = ∑ d : Fin 128, wC (Wb x2 b) c d * Cb x0 b d c := by
    rw [val_main_v10_apply, val_main_v9_apply, val_main_v8_apply, val_main_cst_apply]
    refine (congrArg (· + _) Ideal.ofBits_zero_f32).trans ((zero_add _).trans (Finset.sum_congr rfl fun d _ => ?_))
    refine (congrArg (val_main_v7 (F := Ideal) x0 x2) (show _ = ix3 b c d by ix_ext)).trans ?_
    rw [val_main_v7_apply, band1_ref, ctxT_ref]; rfl
  rw [val_main_v14_apply, val_main_v11_apply, h6, h13, h10]
  unfold score
  exact add_right_comm _ _ _

/-! ## The softmax over query positions -/

theorem rowTop_ref (b : Fin 32) (c : Fin 1024) :
    val_main_v17 (F := Ideal) x0 x1 x2 (ix2 b c) = rowTop (Cb x0 b) (Qb x1 b) (Wb x2 b) c := by
  rw [val_main_v17_apply, val_main_v16_apply, val_main_cst_1_apply]
  unfold val_main_v15 val_main_cst_0 rowTop
  refine congrArg (max negInf) ((hostMaxLast3 _ _ _ (by decide) _ b c).trans ?_)
  simp only [score_ref]

theorem rowExp_ref (b : Fin 32) (c : Fin 1024) (q : Fin 512) :
    val_main_v21 (F := Ideal) x0 x1 x2 (ix3 b c q) = rowExp (Cb x0 b) (Qb x1 b) (Wb x2 b) c q := by
  rw [val_main_v21_apply, val_main_v20_apply, val_main_v19_apply, val_main_v18_apply,
    show idx_main_v18 (idx_main_v19 (ix3 b c q)) = ix2 b c from by ix_ext, rowTop_ref, score_ref]
  rfl

theorem rowSoft_ref (b : Fin 32) (c : Fin 1024) (q : Fin 512) :
    val_main_v25 (F := Ideal) x0 x1 x2 (ix3 b c q) = rowSoft (Cb x0 b) (Qb x1 b) (Wb x2 b) c q := by
  have hs : ∀ k : Fin 512, val_main_v21 (F := Ideal) x0 x1 x2 (idx_main_v22 (ix2 b c) k) = rowExp (Cb x0 b) (Qb x1 b) (Wb x2 b) c k :=
    fun k => (congrArg (val_main_v21 (F := Ideal) x0 x1 x2) (show _ = ix3 b c k by ix_ext)).trans (rowExp_ref x0 x1 x2 b c k)
  rw [val_main_v25_apply, val_main_v24_apply, val_main_v23_apply,
    show idx_main_v23 (idx_main_v24 (ix3 b c q)) = ix2 b c from by ix_ext, val_main_v22_apply, val_main_cst_2_apply, rowExp_ref]
  simp only [hs]
  exact congrArg (Ideal.div _) ((congrArg (· + _) Ideal.ofBits_zero_f32).trans (zero_add _))

/-! ## The softmax over context positions -/

theorem colTop_ref (b : Fin 32) (q : Fin 512) :
    val_main_v28 (F := Ideal) x0 x1 x2 (ix2 b q) = colTop (Cb x0 b) (Qb x1 b) (Wb x2 b) q := by
  rw [val_main_v28_apply, val_main_v27_apply, val_main_cst_4_apply]
  unfold val_main_v26 val_main_cst_3 colTop
  refine congrArg (max negInf) ((hostMaxMid3 _ _ _ (by decide) _ b q).trans ?_)
  simp only [score_ref]

theorem colExp_ref (b : Fin 32) (c : Fin 1024) (q : Fin 512) :
    val_main_v32 (F := Ideal) x0 x1 x2 (ix3 b c q) = colExp (Cb x0 b) (Qb x1 b) (Wb x2 b) c q := by
  rw [val_main_v32_apply, val_main_v31_apply, val_main_v30_apply, val_main_v29_apply,
    show idx_main_v29 (idx_main_v30 (ix3 b c q)) = ix2 b q from by ix_ext, colTop_ref, score_ref]
  rfl

theorem colSoft_ref (b : Fin 32) (c : Fin 1024) (q : Fin 512) :
    val_main_v36 (F := Ideal) x0 x1 x2 (ix3 b c q) = colSoft (Cb x0 b) (Qb x1 b) (Wb x2 b) c q := by
  have hs : ∀ k : Fin 1024, val_main_v32 (F := Ideal) x0 x1 x2 (idx_main_v33 (ix2 b q) k) = colExp (Cb x0 b) (Qb x1 b) (Wb x2 b) k q :=
    fun k => (congrArg (val_main_v32 (F := Ideal) x0 x1 x2) (show _ = ix3 b k q by ix_ext)).trans (colExp_ref x0 x1 x2 b k q)
  rw [val_main_v36_apply, val_main_v35_apply, val_main_v34_apply,
    show idx_main_v34 (idx_main_v35 (ix3 b c q)) = ix2 b q from by ix_ext, val_main_v33_apply, val_main_cst_5_apply, colExp_ref]
  simp only [hs]
  exact congrArg (Ideal.div _) ((congrArg (· + _) Ideal.ofBits_zero_f32).trans (zero_add _))

/-! ## The attention products -/

theorem c2q_ref (b : Fin 32) (c : Fin 1024) (d : Fin 128) :
    val_main_v37 (F := Ideal) x0 x1 x2 (ix3 b c d) = c2q (Cb x0 b) (Qb x1 b) (Wb x2 b) c d := by
  rw [val_main_v37_apply]
  refine Finset.sum_congr rfl fun k _ => congrArg₂ (· * ·) ?_ ?_
  · exact (congrArg (val_main_v25 (F := Ideal) x0 x1 x2) (show _ = ix3 b c k by ix_ext)).trans (rowSoft_ref x0 x1 x2 b c k)
  · exact (congrArg (val_main_v1 (F := Ideal) x1) (show _ = ix3 b k d by ix_ext)).trans (qryT_ref x1 b k d)

theorem colCtx_ref (b : Fin 32) (q : Fin 512) (d : Fin 128) :
    val_main_v38 (F := Ideal) x0 x1 x2 (ix3 b q d) = colCtx (Cb x0 b) (Qb x1 b) (Wb x2 b) q d := by
  rw [val_main_v38_apply]
  refine Finset.sum_congr rfl fun k _ => congrArg₂ (· * ·) ?_ ?_
  · exact (congrArg (val_main_v36 (F := Ideal) x0 x1 x2) (show _ = ix3 b k q by ix_ext)).trans (colSoft_ref x0 x1 x2 b k q)
  · exact (congrArg (val_main_v0 (F := Ideal) x0) (show _ = ix3 b k d by ix_ext)).trans (ctxT_ref x0 b k d)

theorem q2c_ref (b : Fin 32) (c : Fin 1024) (d : Fin 128) :
    val_main_v39 (F := Ideal) x0 x1 x2 (ix3 b c d) = q2c (Cb x0 b) (Qb x1 b) (Wb x2 b) c d := by
  rw [val_main_v39_apply]
  refine Finset.sum_congr rfl fun k _ => congrArg₂ (· * ·) ?_ ?_
  · exact (congrArg (val_main_v25 (F := Ideal) x0 x1 x2) (show _ = ix3 b c k by ix_ext)).trans (rowSoft_ref x0 x1 x2 b c k)
  · exact (congrArg (val_main_v38 (F := Ideal) x0 x1 x2) (show _ = ix3 b k d by ix_ext)).trans (colCtx_ref x0 x1 x2 b k d)

/-! ## The four bands, transposed -/

/-- The reference's result array is the attention of its three arguments, the weight one cast to `[32, 1024, 384]`. -/
theorem result_ref : val_main_v43 (F := Ideal) x0 x1 x2 = resultOf x0 x1 (val_main_v2 (F := Ideal) x2) := by
  funext i
  obtain ⟨b, f, c, rfl⟩ : ∃ (b : Fin 32) (f : Fin 512) (c : Fin 1024), i = ix3 b f c := ⟨i 0, i 1, i 2, eq_ix3 i⟩
  show _ = feat (Cb x0 b) (Qb x1 b) (Wb x2 b) f c
  rw [val_main_v43_apply, show idx_main_v43 (ix3 b f c) = ix3 b c f from by ix_ext]
  unfold val_main_v42
  by_cases h0 : f.val < 128
  · rw [feat_band0 _ _ _ f c h0]
    exact (concat_last3_apply _ _ 0 (by show (0 : ℕ) < 4; decide) _ rfl 0 rfl b c ⟨f.val, h0⟩ f (Nat.zero_add _)).trans
      (ctxT_ref x0 b c _)
  by_cases h1 : f.val < 256
  · rw [feat_band1 _ _ _ f c h0 h1]
    exact (concat_last3_apply _ _ 1 (by show (1 : ℕ) < 4; decide) _ rfl 128 rfl b c ⟨f.val - 128, by omega⟩ f
      (by show 128 + (f.val - 128) = f.val; omega)).trans (c2q_ref x0 x1 x2 b c _)
  by_cases h2 : f.val < 384
  · rw [feat_band2 _ _ _ f c h1 h2]
    refine (concat_last3_apply _ _ 2 (by show (2 : ℕ) < 4; decide) _ rfl 256 rfl b c ⟨f.val - 256, by omega⟩ f
      (by show 256 + (f.val - 256) = f.val; omega)).trans ?_
    rw [val_main_v40_apply, ctxT_ref, c2q_ref]; rfl
  · rw [feat_band3 _ _ _ f c h2]
    refine (concat_last3_apply _ _ 3 (by show (3 : ℕ) < 4; decide) _ rfl 384 rfl b c ⟨f.val - 384, by have := f.isLt; omega⟩ f
      (by show 384 + (f.val - 384) = f.val; omega)).trans ?_
    rw [val_main_v41_apply, ctxT_ref, q2c_ref]; rfl

end Cert.ReferenceIdeal.Stages

end
-- ==== Proof.lean ====
/-
  Context–query attention: the kernel against its jnp reference, over the extended reals.

  For each of 32 batch elements both programs compute, from a context block C (128 features × 1024 positions), a
  query block Q (128 × 512) and a weight block W (1024 positions × three bands of 128 features), the trilinear
  similarity  S[c,q] = wQ[c]·Q[:,q] + (wCQ[c] ∘ C[:,c])·Q[:,q] + wC[c]·C[:,c],  its softmax over the query positions
  and its softmax over the context positions, the context-to-query attention A = rowSoft · Qᵀ, the query-to-context
  attention B = rowSoft · (colSoftᵀ · Cᵀ), and stack Cᵀ, A, Cᵀ ∘ A, Cᵀ ∘ B feature-major (module Spec states this as
  `CQAttention.feat`, per batch element, and `CQAttention.resultOf`, for the whole arrays).

  The kernel does it one batch element per grid point with matrix products into a zero accumulator (changes of float
  format before them are the identity at the ideal values), the reference on whole arrays with batched contractions;
  the two sum the similarity's three terms in different groupings. Commutativity and associativity of + on the
  extended reals is the only law that separates them, so the inputs' finiteness is never used.

  Modules: KernelBody (the body's result is `feat` of its three loaded blocks), KernelArray (the 32 stored blocks
  tile the result array: the kernel's run ends at `resultOf`), RefStages (each stage of the reference, read at batch
  `b`, is the stage of `feat`: the reference's run ends at `resultOf`).
-/
import proofs.«140836_j15101105013508_1_alg».proof.Defs
import proofs.«140836_j15101105013508_1_alg».proof.Proof.Gen.Kernel
import proofs.«140836_j15101105013508_1_alg».proof.Proof.Gen.Kernel.Skeleton
import proofs.«140836_j15101105013508_1_alg».proof.Proof.Gen.Kernel.Launch
import proofs.«140836_j15101105013508_1_alg».proof.Proof.Gen.Kernel.Points
import proofs.«140836_j15101105013508_1_alg».proof.Proof.Gen.Kernel.Frame
import proofs.«140836_j15101105013508_1_alg».proof.Proof.Gen.KernelIdeal
import proofs.«140836_j15101105013508_1_alg».proof.Proof.Gen.KernelIdeal.Skeleton
import proofs.«140836_j15101105013508_1_alg».proof.Proof.Gen.KernelIdeal.Launch
import proofs.«140836_j15101105013508_1_alg».proof.Proof.Gen.KernelIdeal.Points
import proofs.«140836_j15101105013508_1_alg».proof.Proof.Gen.KernelIdeal.Frame
import proofs.«140836_j15101105013508_1_alg».proof.Proof.Gen.ReferenceIdeal
import proofs.«140836_j15101105013508_1_alg».proof.Proof.Gen.Pre_finite_inputs
import proofs.«140836_j15101105013508_1_alg».proof.Proof.KernelArray
import proofs.«140836_j15101105013508_1_alg».proof.Proof.RefStages
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote nothing: the idealized kernel is the kernel's own text read at the ideal values. -/
theorem preserves : Cert.preserves_Kernel_KernelIdeal := trivial

/-- From memories that agree on the three arguments both programs end with the attention `resultOf` of those
    arguments (the weight array cast to `[32, 1024, 384]`, as both programs cast it first). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨?_, (h c).2⟩)
    (Cert.ReferenceIdeal.RunP.run (F := Ideal) m' ρ')
  rw [(h c).1, Cert.ReferenceIdeal.ReadP.val_main_v43_eq, Cert.ReferenceIdeal.Stages.result_ref,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
